-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x50257 : Shape := ⟨2, ![2048, 50257]⟩
abbrev S2048 : Shape := ⟨1, ![2048]⟩
abbrev S_ : Shape := ⟨0, ![]⟩

class Facts : Prop where
  bcast_S_S2048x50257 : S_.BroadcastsInDim S2048x50257 (![] : Fin 0 → Fin S2048x50257.rank)
  reducesTo_S2048x50257_S_d0_1 : S2048x50257.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2048x50257 .f32) (main_arg1 : IVec S2048 32) : IVec S_ 1 :=
  let main_v0 : FVec F S2048x50257 .f32 := Host.absf main_arg0
  let main_cst : FVec F S_ .f32 := constant S_ .f32 0x7F800000#32
  let main_v1 : FVec F S2048x50257 .f32 := broadcastInDim S2048x50257 ![] bcast_S_S2048x50257 main_cst
  let main_v2 : IVec S2048x50257 1 := cmpf .olt main_v0 main_v1
  let main_c : IVec S_ 1 := constantI S_ 1 1#1
  let main_v3 : IVec S_ 1 := (fun x v => Host.reduce IntOp.andi x v reducesTo_S2048x50257_S_d0_1 h_S_) main_v2 main_c
  let main_c_0 : IVec S_ 32 := constantI S_ 32 0#32
  let main_v4 : IVec S2048 32 := broadcastInDim S2048 ![] bcast_S_S2048 main_c_0
  let main_v5 : IVec S2048 1 := cmpi .sge main_arg1 main_v4
  let main_c_1 : IVec S_ 32 := constantI S_ 32 50257#32
  let main_v6 : IVec S2048 32 := broadcastInDim S2048 ![] bcast_S_S2048 main_c_1
  let main_v7 : IVec S2048 1 := cmpi .slt main_arg1 main_v6
  let main_v8 : IVec S2048 1 := andi main_v5 main_v7
  let main_c_2 : IVec S_ 1 := constantI S_ 1 1#1
  let main_v9 : IVec S_ 1 := (fun x v => Host.reduce IntOp.andi x v reducesTo_S2048_S_d0 h_S_) main_v8 main_c_2
  let main_v10 : IVec S_ 1 := andi main_v3 main_v9
  main_v10
-- ==== Kernel.lean ====
abbrev S2048x50257 : Shape := ⟨2, ![2048, 50257]⟩
abbrev S2048 : Shape := ⟨1, ![2048]⟩
abbrev S2048x1 : Shape := ⟨2, ![2048, 1]⟩
abbrev S32x50257 : Shape := ⟨2, ![32, 50257]⟩
abbrev S32x1 : Shape := ⟨2, ![32, 1]⟩
abbrev S32 : Shape := ⟨1, ![32]⟩
abbrev S_ : Shape := ⟨0, ![]⟩

abbrev nBuf : Space → Nat
  | .hbm => 8
  | .vmem => 6
  | .smem => 0
  | _ => 0

abbrev bufTy : (tb : Table) → Fin (tcTables nBuf tb) → BufTy
  | .hbm, ⟨0, _⟩ => ⟨S2048x50257, .f32⟩
  | .hbm, ⟨1, _⟩ => ⟨S2048, .i32⟩
  | .hbm, ⟨2, _⟩ => ⟨S2048x1, .i32⟩
  | .hbm, ⟨3, _⟩ => ⟨S2048x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S32x50257, .f32⟩
  | .local _ .vmem, ⟨1, _⟩ => ⟨S32x50257, .f32⟩
  | .local _ .vmem, ⟨2, _⟩ => ⟨S32x1, .i32⟩
  | .local _ .vmem, ⟨3, _⟩ => ⟨S32x1, .i32⟩
  | .local _ .vmem, ⟨4, _⟩ => ⟨S32x1, .f32⟩
  | .local _ .vmem, ⟨5, _⟩ => ⟨S32x1, .f32⟩
  | _, _ => ⟨S2048x50257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x50257 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S2048_S2048x1 : S2048.ShapeCasts S2048x1
  inb_S32x50257_S32x50257_0_0 : ∀ a, (![0, 0] : Fin 2 → Nat) a + S32x50257.size a ≤ S32x50257.size a
  h_S32x50257 : 0 < S32x50257.numel
  reduces_S32x50257_S32 : S32x50257.Reduces [1] S32
  shapeCasts_S32_S32x1 : S32.ShapeCasts S32x1
  broadcasts_S32x1_S32x50257 : S32x1.Broadcasts S32x50257
  inb_S32x1_S32x1_0_0 : ∀ a, (![0, 0] : Fin 2 → Nat) a + S32x1.size a ≤ S32x1.size a
  h_S32x1 : 0 < S32x1.numel
  shapeCasts_S32x1_S32x1 : S32x1.ShapeCasts S32x1
  iota_S32x50257_d1_w32 : S32x50257.Iotas .tc 32 [1]
  reducesTo_S2048x1_S_d0_1 : S2048x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x50257.size a ≤ S2048x50257.size a
  hwx0_0 : ∀ i : grid0.Coords, EltTy.bits .f32 = 32 ∨ (Rect.block (s := S2048x50257) S32x50257.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1.size a ≤ S2048x1.size a
  hwx0_1 : ∀ i : grid0.Coords, EltTy.bits .i32 = 32 ∨ (Rect.block (s := S2048x1) S32x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S2048x1.size a
  hwx0_2 : ∀ i : grid0.Coords, EltTy.bits .f32 = 32 ∨ (Rect.block (s := S2048x1) S32x1.size (cc0_transform_2 i) (hinb0_2 i)).WholeWords (EltTy.packing .f32)

variable [Facts₀]

abbrev win0_0 : Pipeline.Window sig grid0 :=
  Pipeline.Window.ofSpec (Memref.whole main_arg0) S32x50257.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x50257 : Shape := ⟨2, ![2048, 50257]⟩
abbrev S2048 : Shape := ⟨1, ![2048]⟩
abbrev S2048x1 : Shape := ⟨2, ![2048, 1]⟩
abbrev S_ : Shape := ⟨0, ![]⟩
abbrev S2048x1x1 : Shape := ⟨3, ![2048, 1, 1]⟩
abbrev S1 : Shape := ⟨1, ![1]⟩
abbrev S1x1x1 : Shape := ⟨3, ![1, 1, 1]⟩

abbrev nBuf : Space → Nat
  | .hbm => 67
  | .vmem => 0
  | .smem => 0
  | _ => 0

abbrev bufTy : (tb : Table) → Fin (tcTables nBuf tb) → BufTy
  | .hbm, ⟨0, _⟩ => ⟨S2048x50257, .f32⟩
  | .hbm, ⟨1, _⟩ => ⟨S2048, .i32⟩
  | .hbm, ⟨2, _⟩ => ⟨S2048x1, .i32⟩
  | .hbm, ⟨3, _⟩ => ⟨S_, .f32⟩
  | .hbm, ⟨4, _⟩ => ⟨S2048, .f32⟩
  | .hbm, ⟨5, _⟩ => ⟨S_, .f32⟩
  | .hbm, ⟨6, _⟩ => ⟨S2048, .f32⟩
  | .hbm, ⟨7, _⟩ => ⟨S2048, .f32⟩
  | .hbm, ⟨8, _⟩ => ⟨S2048x1, .f32⟩
  | .hbm, ⟨9, _⟩ => ⟨S2048x50257, .f32⟩
  | .hbm, ⟨10, _⟩ => ⟨S2048x50257, .f32⟩
  | .hbm, ⟨11, _⟩ => ⟨S2048x50257, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S2048x1, .f32⟩
  | .hbm, ⟨16, _⟩ => ⟨S2048x50257, .f32⟩
  | .hbm, ⟨17, _⟩ => ⟨S2048x50257, .f32⟩
  | .hbm, ⟨18, _⟩ => ⟨S_, .i32⟩
  | .hbm, ⟨19, _⟩ => ⟨S2048x1, .i32⟩
  | .hbm, ⟨20, _⟩ => ⟨S2048x1, .i1⟩
  | .hbm, ⟨21, _⟩ => ⟨S_, .i32⟩
  | .hbm, ⟨22, _⟩ => ⟨S2048x1, .i32⟩
  | .hbm, ⟨23, _⟩ => ⟨S2048x1, .i32⟩
  | .hbm, ⟨24, _⟩ => ⟨S2048x1, .i32⟩
  | .hbm, ⟨25, _⟩ => ⟨S2048x1x1, .i32⟩
  | .hbm, ⟨26, _⟩ => ⟨S1, .i32⟩
  | .hbm, ⟨27, _⟩ => ⟨S_, .i32⟩
  | .hbm, ⟨28, _⟩ => ⟨S2048x1x1, .i32⟩
  | .hbm, ⟨29, _⟩ => ⟨S2048x1x1, .i1⟩
  | .hbm, ⟨30, _⟩ => ⟨S1x1x1, .i32⟩
  | .hbm, ⟨31, _⟩ => ⟨S2048x1x1, .i32⟩
  | .hbm, ⟨32, _⟩ => ⟨S2048x1x1, .i1⟩
  | .hbm, ⟨33, _⟩ => ⟨S2048x1x1, .i1⟩
  | .hbm, ⟨34, _⟩ => ⟨S_, .i1⟩
  | .hbm, ⟨35, _⟩ => ⟨S2048x1, .i1⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S2048, .f32⟩
  | .hbm, ⟨41, _⟩ => ⟨S2048, .f32⟩
  | .hbm, ⟨42, _⟩ => ⟨S_, .f32⟩
  | .hbm, ⟨43, _⟩ => ⟨S2048, .f32⟩
  | .hbm, ⟨44, _⟩ => ⟨S2048, .i1⟩
  | .hbm, ⟨45, _⟩ => ⟨S_, .f32⟩
  | .hbm, ⟨46, _⟩ => ⟨S2048, .f32⟩
  | .hbm, ⟨47, _⟩ => ⟨S2048, .i1⟩
  | .hbm, ⟨48, _⟩ => ⟨S_, .f32⟩
  | .hbm, ⟨49, _⟩ => ⟨S_, .f32⟩
  | .hbm, ⟨50, _⟩ => ⟨S2048, .f32⟩
  | .hbm, ⟨51, _⟩ => ⟨S2048, .f32⟩
  | .hbm, ⟨52, _⟩ => ⟨S2048, .f32⟩
  | .hbm, ⟨53, _⟩ => ⟨S_, .f32⟩
  | .hbm, ⟨54, _⟩ => ⟨S2048, .f32⟩
  | .hbm, ⟨55, _⟩ => ⟨S2048, .f32⟩
  | .hbm, ⟨56, _⟩ => ⟨S_, .f32⟩
  | .hbm, ⟨57, _⟩ => ⟨S2048, .f32⟩
  | .hbm, ⟨58, _⟩ => ⟨S2048, .f32⟩
  | .hbm, ⟨59, _⟩ => ⟨S2048, .f32⟩
  | .hbm, ⟨60, _⟩ => ⟨S2048, .f32⟩
  | .hbm, ⟨61, _⟩ => ⟨S2048, .f32⟩
  | .hbm, ⟨62, _⟩ => ⟨S2048, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | _, _ => ⟨S2048x50257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v1 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_cst : Ref sig .tc := ⟨.hbm, 42, rfl⟩
abbrev main_v5 : Ref sig .tc := ⟨.hbm, 43, rfl⟩
abbrev main_v6 : Ref sig .tc := ⟨.hbm, 44, rfl⟩
abbrev main_cst_0 : Ref sig .tc := ⟨.hbm, 45, rfl⟩
abbrev main_v7 : Ref sig .tc := ⟨.hbm, 46, rfl⟩
abbrev main_v8 : Ref sig .tc := ⟨.hbm, 47, rfl⟩
abbrev main_cst_1 : Ref sig .tc := ⟨.hbm, 48, rfl⟩
abbrev main_cst_2 : Ref sig .tc := ⟨.hbm, 49, rfl⟩
abbrev main_call2_v0 : Ref sig .tc := ⟨.hbm, 50, rfl⟩
abbrev main_call2_v1 : Ref sig .tc := ⟨.hbm, 51, rfl⟩
abbrev main_v9 : Ref sig .tc := ⟨.hbm, 52, rfl⟩
abbrev main_cst_3 : Ref sig .tc := ⟨.hbm, 53, rfl⟩
abbrev main_call3_v0 : Ref sig .tc := ⟨.hbm, 54, rfl⟩
abbrev main_v10 : Ref sig .tc := ⟨.hbm, 55, rfl⟩
abbrev main_cst_4 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_cst_5 : Ref sig .tc := ⟨.hbm, 63, rfl⟩
abbrev main_v17 : Ref sig .tc := ⟨.hbm, 64, rfl⟩
abbrev main_cst_6 : Ref sig .tc := ⟨.hbm, 65, rfl⟩
abbrev main_v18 : Ref sig .tc := ⟨.hbm, 66, rfl⟩

abbrev nD : Nat := 1
abbrev τ : Topo := Topo.v7x

variable {F : FTy → Type} [FloatOps F]

class Facts₀ : Prop where
  shapeCasts_S2048_S2048x1 : S2048.ShapeCasts S2048x1
  reducesTo_S2048x50257_S2048_d1 : S2048x50257.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x50257_0_1 : S2048x1.BroadcastsInDim S2048x50257 (![0, 1] : Fin 2 → Fin S2048x50257.rank)
  bcast_S_S2048x1 : S_.BroadcastsInDim S2048x1 (![] : Fin 0 → Fin S2048x1.rank)
  shapeCasts_S2048x1_S2048x1x1 : S2048x1.ShapeCasts S2048x1x1
  bcast_S_S2048x1x1 : S_.BroadcastsInDim S2048x1x1 (![] : Fin 0 → Fin S2048x1x1.rank)
  bcast_S1_S1x1x1_2 : S1.BroadcastsInDim S1x1x1 (![2] : Fin 1 → Fin S1x1x1.rank)
  bcast_S1x1x1_S2048x1x1_0_1_2 : S1x1x1.BroadcastsInDim S2048x1x1 (![0, 1, 2] : Fin 3 → Fin S2048x1x1.rank)
  reducesTo_S2048x1x1_S2048x1_d2 : S2048x1x1.ReducesTo [2] S2048x1
  shapeCasts_S2048x1_S2048 : S2048x1.ShapeCasts S2048
  reducesTo_S2048_S_d0 : S2048.ReducesTo [0] S_
  gather_S2048x50257_S2048x1x1_S2048x1_n_1_0_0_1_2_11_wf : GatherDims.WF S2048x50257 S2048x1x1 S2048x1 [] [1] [0] [1] [0] 2 ![1, 1]

variable [Facts₀]

def gather_S2048x50257_S2048x1x1_S2048x1_n_1_0_0_1_2_11 : GatherDims S2048x50257 S2048x1x1 S2048x1 where
  offsetDims := []
  collapsedSliceDims := [1]
  operandBatchingDims := [0]
  startIndicesBatchingDims := [0]
  startIndexMap := [1]
  indexVectorDim := 2
  sliceSizes := ![1, 1]
  wf := gather_S2048x50257_S2048x1x1_S2048x1_n_1_0_0_1_2_11_wf

class Facts : Prop extends Facts₀ where

variable [Facts]
-- ==== Proof.FocalSpec.lean ====
/-
  The adaptive focal loss as ONE function of the two argument arrays, on the extended reals.

  For a row `x` of 50257 logits and a label `k`, with `M` the row's maximum (the fold of `max` from `-∞`):
    logpt  = (x k − M) − log (∑ q, exp (x q − M))          the label's log-softmax,
    pt     = exp logpt,   om = 1 − pt,
    weight = om⁵ if pt < 0.2, om³ if pt < 0.5, om otherwise  (the thresholds the f32 words both programs carry),
    loss   = (0 − weight) · logpt,
  and the result is (0 + ∑ over the 2048 rows of loss) / 2048.

  The kernel spells the weight as products selected by the two comparisons; the reference raises `om` to an
  exponent selected among 5.0, 3.0 and 1.0 by the same comparisons and negates. On every extended real the power with
  one of these three exponents IS the product (on the reals `Real.rpow` at a natural exponent is the monomial; at
  `-∞` an odd number of factors is `-∞`, which is `pow`'s value there; at `+∞` both are `+∞`), and `0 − a = −a`:
  `rowLossRef_eq`. The kernel picks the label's entry by summing the row against the one-hot mask `iota = label`;
  for a label word below 50257 that sum is the entry itself: `sum_select_eq`.
-/
import Idealize.ShloMosaic.PureOps.Ideal
import Idealize.ShloMosaic.PureOps.Ideal.Laws
import Idealize.ShloMosaic.Lib.ValueIdx

noncomputable section

namespace Cert.FocalSpec

open Idealize.ShloMosaic Idealize.ShloMosaic.ValueIdx

/-- The column a label word names: the word's value, reduced into the row's range (a label in range names itself). -/
def col (w : BitVec 32) : Fin 50257 := ⟨w.toNat % 50257, Nat.mod_lt _ (by norm_num)⟩

theorem col_val (w : BitVec 32) (h : w.toNat < 50257) : (col w).val = w.toNat := Nat.mod_eq_of_lt h

/-- A row's maximum: the fold of `max` over its entries from `-∞`. -/
def rowMax (row : Fin 50257 → EReal) : EReal := (Finset.univ : Finset (Fin 50257)).fold max ⊥ row

/-- The label's log-softmax, computed on the row shifted by its maximum. -/
def logpt (row : Fin 50257 → EReal) (k : Fin 50257) : EReal :=
  (row k - rowMax row) - Ideal.log (∑ q : Fin 50257, Ideal.exp (row q - rowMax row))

/-- One of three values by where `pt` lies against the thresholds 0.2 and 0.5 (their f32 words). -/
def pick {α : Type} (pt : EReal) (a5 a3 a1 : α) : α :=
  Scalar.select (Ideal.cmp .olt pt (Ideal.ofBits .f32 0x3E4CCCCD#32)) a5
    (Scalar.select (Ideal.cmp .olt pt (Ideal.ofBits .f32 0x3F000000#32)) a3 a1)

/-- `1 − exp logpt`. -/
def omOf (lp : EReal) : EReal := Ideal.ofBits .f32 0x3F800000#32 - Ideal.exp lp

/-- A row's loss from its label's log-softmax, the weight a selected product. -/
def rowLoss (lp : EReal) : EReal :=
  (Ideal.ofBits .f32 0x00000000#32
      - pick (Ideal.exp lp) (omOf lp * omOf lp * omOf lp * omOf lp * omOf lp) (omOf lp * omOf lp * omOf lp) (omOf lp)) * lp

/-- The same with the weight a power at a selected exponent, negated. -/
def rowLossRef (lp : EReal) : EReal :=
  (-(Ideal.pow (omOf lp)
      (pick (Ideal.exp lp) (Ideal.ofBits .f32 0x40A00000#32) (Ideal.ofBits .f32 0x40400000#32) (Ideal.ofBits .f32 0x3F800000#32)))) * lp

/-- The whole result: the mean over the 2048 rows. -/
def total (X : (⟨2, ![2048, 50257]⟩ : Shape).Idx → EReal) (T : (⟨1, ![2048]⟩ : Shape).Idx → BitVec 32) : EReal :=
  Ideal.div (Ideal.ofBits .f32 0x00000000#32
      + ∑ r : Fin 2048, rowLoss (logpt (fun q => X (ix2 r q)) (col (T (ix1 r)))))
    (Ideal.ofBits .f32 0x45000000#32)

/-! ## The three exponents -/

theorem ofBits_five : Ideal.ofBits .f32 0x40A00000#32 = ((5 : ℝ) : EReal) := by
  simp [Ideal.ofBits, Ideal.ieee, -EReal.coe_mul]; norm_num
theorem ofBits_three : Ideal.ofBits .f32 0x40400000#32 = ((3 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num

theorem pow_one' (x : EReal) : Ideal.pow x ((1 : ℝ) : EReal) = x := by
  induction x using EReal.rec with
  | bot => rfl
  | top => simp [Ideal.pow_top]
  | coe r => rw [Ideal.pow_coe_coe]; exact congrArg _ (Real.rpow_one r)

theorem pow_three (x : EReal) : Ideal.pow x ((3 : ℝ) : EReal) = x * x * x := by
  induction x using EReal.rec with
  | bot => simp [Ideal.pow_bot, EReal.bot_mul_bot, EReal.top_mul_bot]
  | top => simp [Ideal.pow_top, EReal.top_mul_top]
  | coe r =>
    rw [Ideal.pow_coe_coe, ← EReal.coe_mul, ← EReal.coe_mul]
    refine congrArg _ ?_
    have h : (3 : ℝ) = ((3 : ℕ) : ℝ) := by norm_num
    show r ^ (3 : ℝ) = r * r * r
    rw [h, Real.rpow_natCast]; ring

theorem pow_five (x : EReal) : Ideal.pow x ((5 : ℝ) : EReal) = x * x * x * x * x := by
  induction x using EReal.rec with
  | bot => simp [Ideal.pow_bot, EReal.bot_mul_bot, EReal.top_mul_bot]
  | top => simp [Ideal.pow_top, EReal.top_mul_top]
  | coe r =>
    rw [Ideal.pow_coe_coe, ← EReal.coe_mul, ← EReal.coe_mul, ← EReal.coe_mul, ← EReal.coe_mul]
    refine congrArg _ ?_
    have h : (5 : ℝ) = ((5 : ℕ) : ℝ) := by norm_num
    show r ^ (5 : ℝ) = r * r * r * r * r
    rw [h, Real.rpow_natCast]; ring

/-- A function of the picked value is the pick of its values. -/
theorem apply_pick {α β : Type} (f : α → β) (pt : EReal) (a5 a3 a1 : α) :
    f (pick pt a5 a3 a1) = pick pt (f a5) (f a3) (f a1) := by
  unfold pick Scalar.select
  split_ifs <;> rfl

/-- The reference's spelling of a row's loss is the kernel's. -/
theorem rowLossRef_eq (lp : EReal) : rowLossRef lp = rowLoss lp := by
  unfold rowLossRef rowLoss
  rw [apply_pick (Ideal.pow (omOf lp)), ofBits_five, ofBits_three, ofBits_one, pow_five, pow_three, pow_one',
    Ideal.ofBits_zero_f32, zero_sub]

/-! ## The one-hot sum -/

/-- Summing a row against the mask "the column's number is the label word" picks the label's entry, for a label
    word below the row's length. -/
theorem sum_select_eq (f : Fin 50257 → EReal) (w : BitVec 32) (hw : w.toNat < 50257) :
    (∑ q : Fin 50257, Scalar.select (IntOp.cmpi .eq (BitVec.ofNat 32 q.val) w) (f q) (Ideal.ofBits .f32 0x00000000#32))
      = f (col w) := by
  rw [Ideal.ofBits_zero_f32]
  have key : ∀ q : Fin 50257,
      Scalar.select (IntOp.cmpi .eq (BitVec.ofNat 32 q.val) w) (f q) (0 : EReal) = if q = col w then f q else 0 := by
    intro q
    unfold Scalar.select IntOp.cmpi
    have hq : q.val < 50257 := q.isLt
    by_cases h : q = col w
    · have e : BitVec.ofNat 32 q.val = w := by
        apply BitVec.eq_of_toNat_eq
        rw [BitVec.toNat_ofNat, h, col_val w hw]
        exact Nat.mod_eq_of_lt w.isLt
      rw [if_pos h, e]; simp
    · have e : BitVec.ofNat 32 q.val ≠ w := by
        intro e
        apply h
        apply Fin.ext
        rw [col_val w hw, ← e, BitVec.toNat_ofNat]
        exact (Nat.mod_eq_of_lt (by omega)).symm
      have e' : (BitVec.ofNat 32 q.val == w) = false := beq_eq_false_iff_ne.mpr e
      rw [if_neg h, e']; simp
  rw [Finset.sum_congr rfl (fun q _ => key q), Finset.sum_ite_eq' Finset.univ (col w) f]
  simp

end Cert.FocalSpec

end
-- ==== Proof.FocalPre.lean ====
/-
  What the precondition says of the labels: every label word, read as a natural number, is below 50257.

  The printed predicate is the conjunction of "every logit is finite" and "every label is at least 0 and below 50257,
  signed", each a reduction by `and` to one bit. A word that is at least 0 signed has its top bit clear, so its signed
  and unsigned readings agree, and below 50257 signed is then below 50257 as a natural number.
-/
import proofs.«431111_j5978594476648_2_alg».proof.Pre_finite_inputs
import Idealize.ShloMosaic.Lib.ReduceAll
import Idealize.ShloMosaic.Lib.Affine
import Idealize.ShloMosaic.Lib.ValueIdx

noncomputable section

namespace Cert.FocalPre

open Idealize.ShloMosaic Idealize.ShloMosaic.ValueIdx

/-- A word at least 0 and below 50257, both signed, is below 50257 unsigned. -/
theorem toNat_lt (w : BitVec 32) (h0 : IntOp.cmpi .sge w (0#32) = 1#1) (h1 : IntOp.cmpi .slt w (50257#32) = 1#1) :
    w.toNat < 50257 := by
  have ob : ∀ b : Bool, BitVec.ofBool b = 1#1 → b = true := by intro b; cases b <;> simp
  unfold IntOp.cmpi at h0 h1
  have h0' := ob _ h0
  have h1' := ob _ h1
  simp only [BitVec.slt, BitVec.sle, decide_eq_true_eq] at h0' h1'
  have e := BitVec.toInt_eq_toNat_cond w
  have e0 : (0#32 : BitVec 32).toInt = 0 := by decide
  have e1 : (50257#32 : BitVec 32).toInt = 50257 := by decide
  have := w.isLt
  rw [e0] at h0'
  rw [e1] at h1'
  split at e <;> omega

instance : Subsingleton Cert.Pre_finite_inputs.S_.Idx := ⟨fun a b => funext fun d => d.elim0⟩

variable [Cert.Pre_finite_inputs.Facts]

/-- Under the precondition every label word is below 50257. -/
theorem labels_lt {F : FTy → Type} [FloatOps F] (X : FVec F Cert.Pre_finite_inputs.S2048x50257 .f32) (T : IVec Cert.Pre_finite_inputs.S2048 32)
    (h : Cert.Pre_finite_inputs.fn (F := F) X T = fun _ => 1#1) (r : Fin 2048) : (T (ix1 r)).toNat < 50257 := by
  have e := congrFun h ix0
  dsimp only [Cert.Pre_finite_inputs.fn] at e
  have e2 := (IntOp.andi_eq_one.mp e).2
  have e3 := Host.reduce_andi_all _ _ _ _ _ e2 (ix1 r)
  have e4 := IntOp.andi_eq_one.mp e3
  exact toNat_lt _ e4.1 e4.2

end Cert.FocalPre

end
-- ==== Proof.KernelRow.lean ====
/-
  What the kernel's body stores in row `p` of its output block, as a function of row `p` of the logits block and the
  label word in row `p` of the label block: the row's focal loss (FocalSpec.rowLoss of FocalSpec.logpt).

  The stored column is read in stages. The reduction by `max` along a row from `-∞` is the row's maximum; recast to a
  column and broadcast back along the rows it is subtracted entry by entry, giving the shifted block. The shifted block
  masked by "the column's number is the row's label word" sums along a row to the label's shifted entry (a label word
  below the row's length), and the exponentials of the shifted block sum to the softmax denominator; their difference
  after a logarithm is the label's log-softmax. What follows is pointwise in that column and is the specification's row
  loss entry by entry.
-/
import proofs.«431111_j5978594476648_2_alg».proof.Proof.Gen.KernelIdeal.Skeleton
import proofs.«431111_j5978594476648_2_alg».proof.Proof.FocalSpec
import Idealize.ShloMosaic.Lib.Pipeline.Value
import Idealize.ShloMosaic.Lib.ValueIdx
import Idealize.ShloMosaic.PureOps.Ideal.Laws

noncomputable section

namespace Cert.KernelIdeal.RowValue

open Cert.KernelIdeal Cert.KernelIdeal.Gen Idealize.ShloMosaic Idealize.ShloMosaic.ValueIdx

/-- Inserting column `q` on axis 1 of the row index `p` gives the index `(p, q)`. -/
theorem lift_eq (p : Fin 32) (q : Fin 50257) :
    Shape.Reduces.lift reduces_S32x50257_S32 (ix1 p) q = ix2 p q := by
  funext c
  match c with
  | ⟨0, _⟩ => rfl
  | ⟨1, _⟩ => rfl

/-- The word of `-∞` is the bottom of the extended reals. -/
theorem ofBits_neg_inf : Ideal.ofBits .f32 0xFF800000#32 = (⊥ : EReal) := by
  simp [Ideal.ofBits, Ideal.ieee]

/-- The reduction by `max` along a row from `-∞` is the row's maximum. -/
theorem max_apply (x0 : Vec Ideal S32x50257 .f32) (p : Fin 32) :
    multiReduction (F := Ideal) .maximumf [1] S32 x0 0xFF800000#32 reduces_S32x50257_S32 (.inl rfl) rfl (ix1 p)
      = Cert.FocalSpec.rowMax (fun q => x0 (ix2 p q)) := by
  refine (Ideal.multiReduction_maximumf_single (φ := .f32) x0 0xFF800000#32 reduces_S32x50257_S32 (.inl rfl) rfl
    (ix1 p)).trans ?_
  have e : (x0 ∘ Shape.Reduces.lift reduces_S32x50257_S32 (ix1 p)) = fun q : Fin 50257 => x0 (ix2 p q) := by
    funext q; exact congrArg x0 (lift_eq p q)
  unfold Cert.FocalSpec.rowMax
  exact congrArg₂ (fun (b : EReal) (f : Fin 50257 → EReal) => Finset.fold max b f Finset.univ) ofBits_neg_inf e

/-- A column broadcast along the rows, read at `(p, q)`, is the column at row `p`. -/
theorem bcast_col_apply {α : Type} (v : S32x1.Idx → α) (p : Fin 32) (q : Fin 50257) :
    broadcastTo S32x50257 v broadcasts_S32x1_S32x50257 (ix2 p q) = v (ix2 p (0 : Fin 1)) := by
  refine broadcastTo_apply v broadcasts_S32x1_S32x50257 (ix2 p q) (ix2 p (0 : Fin 1)) ?_
  intro a
  match a with
  | ⟨0, _⟩ => rfl
  | ⟨1, _⟩ => rfl

/-- A vector of 32 entries recast to a column, read at row `p`, is its entry `p`. -/
theorem cast_col_apply {α : Type} (v : S32.Idx → α) (p : Fin 32) :
    shapeCast S32x1 v shapeCasts_S32_S32x1 (ix2 p (0 : Fin 1)) = v (ix1 p) := by
  refine shapeCast_apply v shapeCasts_S32_S32x1 (ix2 p (0 : Fin 1)) (ix1 p) ?_
  rw [Shape.rowMajor_val_one, Shape.rowMajor_val_two]
  show p.val = p.val * 1 + 0
  omega

/-- An exponential at an index is the exponential of the element. -/
theorem exp_at {s : Shape} (a : FVec Ideal s .f32) (i : s.Idx) : exp a i = Ideal.exp (a i) := rfl

/-- A logarithm at an index is the logarithm of the element. -/
theorem log_at {s : Shape} (a : FVec Ideal s .f32) (i : s.Idx) : log a i = Ideal.log (a i) := rfl

/-- The block with each row's maximum subtracted. -/
def shifted (x0 : Vec Ideal S32x50257 .f32) : FVec Ideal S32x50257 .f32 :=
  subf x0 (broadcastTo S32x50257 (shapeCast S32x1
    (multiReduction (F := Ideal) .maximumf [1] S32 x0 0xFF800000#32 reduces_S32x50257_S32 (.inl rfl) rfl)
    shapeCasts_S32_S32x1) broadcasts_S32x1_S32x50257)

/-- Entry `(p, q)` of the shifted block is the entry less its row's maximum. -/
theorem shifted_apply (x0 : Vec Ideal S32x50257 .f32) (p : Fin 32) (q : Fin 50257) :
    shifted x0 (ix2 p q) = x0 (ix2 p q) - Cert.FocalSpec.rowMax (fun q => x0 (ix2 p q)) := by
  unfold shifted
  refine (subf_apply _ _ _).trans ?_
  exact congrArg (fun m : EReal => x0 (ix2 p q) - m)
    (((bcast_col_apply _ p q).trans (cast_col_apply _ p)).trans (max_apply x0 p))

/-- The shifted block masked to the label's column: the entry where the column's number is the row's label word,
    zero elsewhere. -/
def masked (x0 : Vec Ideal S32x50257 .f32) (x1 : Vec Ideal S32x1 .i32) : FVec Ideal S32x50257 .f32 :=
  select (cmpi .eq (iota .tc S32x50257 32 [1] iota_S32x50257_d1_w32)
      (broadcastTo S32x50257 (shapeCast S32x1 x1 shapeCasts_S32x1_S32x1) broadcasts_S32x1_S32x50257))
    (shifted x0) (broadcast S32x50257 (Scalar.ofBits (F := Ideal) .f32 0x00000000#32))

/-- Entry `(p, q)` of the masked block. -/
theorem masked_apply (x0 : Vec Ideal S32x50257 .f32) (x1 : Vec Ideal S32x1 .i32) (p : Fin 32) (q : Fin 50257) :
    masked x0 x1 (ix2 p q)
      = Scalar.select (IntOp.cmpi .eq (BitVec.ofNat 32 q.val) (x1 (ix2 p (0 : Fin 1))))
          (x0 (ix2 p q) - Cert.FocalSpec.rowMax (fun q => x0 (ix2 p q))) (Ideal.ofBits .f32 0x00000000#32) := by
  have hi : iota .tc S32x50257 32 [1] iota_S32x50257_d1_w32 (ix2 p q) = BitVec.ofNat 32 q.val :=
    iota_single_apply .tc S32x50257 32 1 iota_S32x50257_d1_w32 (ix2 p q)
  have hl : broadcastTo S32x50257 (shapeCast S32x1 x1 shapeCasts_S32x1_S32x1) broadcasts_S32x1_S32x50257 (ix2 p q)
      = x1 (ix2 p (0 : Fin 1)) :=
    (bcast_col_apply _ p q).trans (congrFun (shapeCast_self x1 shapeCasts_S32x1_S32x1) _)
  unfold masked
  refine (select_apply _ _ _ _).trans ?_
  refine congrArg₂ (fun (c : BitVec 1) (a : EReal) => Scalar.select c a (Ideal.ofBits .f32 0x00000000#32)) ?_
    (shifted_apply x0 p q)
  exact congrArg₂ (fun a b : BitVec 32 => IntOp.cmpi .eq a b) hi hl

/-- The row sum of the masked block is the label's shifted entry. -/
theorem sel_apply (x0 : Vec Ideal S32x50257 .f32) (x1 : Vec Ideal S32x1 .i32) (p : Fin 32)
    (hw : (x1 (ix2 p (0 : Fin 1))).toNat < 50257) :
    multiReduction (F := Ideal) .add [1] S32 (masked x0 x1) 0x00000000#32 reduces_S32x50257_S32 (.inl rfl) rfl (ix1 p)
      = x0 (ix2 p (Cert.FocalSpec.col (x1 (ix2 p (0 : Fin 1))))) - Cert.FocalSpec.rowMax (fun q => x0 (ix2 p q)) := by
  refine (Ideal.multiReduction_add_single (φ := .f32) (masked x0 x1) 0x00000000#32 reduces_S32x50257_S32 (.inl rfl) rfl
    (ix1 p)).trans ?_
  have e : ∀ q : Fin 50257, masked x0 x1 (Shape.Reduces.lift reduces_S32x50257_S32 (ix1 p) q)
      = Scalar.select (IntOp.cmpi .eq (BitVec.ofNat 32 q.val) (x1 (ix2 p (0 : Fin 1))))
          ((fun q => x0 (ix2 p q) - Cert.FocalSpec.rowMax (fun q => x0 (ix2 p q))) q) (Ideal.ofBits .f32 0x00000000#32) :=
    fun q => (congrArg (masked x0 x1) (lift_eq p q)).trans (masked_apply x0 x1 p q)
  refine (Finset.sum_congr rfl (fun q _ => e q)).trans ?_
  exact Cert.FocalSpec.sum_select_eq (fun q => x0 (ix2 p q) - Cert.FocalSpec.rowMax (fun q => x0 (ix2 p q))) _ hw

/-- The row sum of the exponentials of the shifted block. -/
theorem sumexp_apply (x0 : Vec Ideal S32x50257 .f32) (p : Fin 32) :
    multiReduction (F := Ideal) .add [1] S32 (exp (shifted x0)) 0x00000000#32 reduces_S32x50257_S32 (.inl rfl) rfl (ix1 p)
      = ∑ q : Fin 50257, Ideal.exp (x0 (ix2 p q) - Cert.FocalSpec.rowMax (fun q => x0 (ix2 p q))) := by
  refine (Ideal.multiReduction_add_single (φ := .f32) (exp (shifted x0)) 0x00000000#32 reduces_S32x50257_S32 (.inl rfl) rfl
    (ix1 p)).trans ?_
  refine Finset.sum_congr rfl (fun q _ => ?_)
  refine (congrArg (exp (shifted x0)) (lift_eq p q)).trans ?_
  exact (exp_at _ _).trans (congrArg Ideal.exp (shifted_apply x0 p q))

/-- The label's log-softmax as the kernel computes it, a column. -/
def logptCol (x0 : Vec Ideal S32x50257 .f32) (x1 : Vec Ideal S32x1 .i32) : FVec Ideal S32x1 .f32 :=
  subf (shapeCast S32x1
      (multiReduction (F := Ideal) .add [1] S32 (masked x0 x1) 0x00000000#32 reduces_S32x50257_S32 (.inl rfl) rfl)
      shapeCasts_S32_S32x1)
    (log (shapeCast S32x1
      (multiReduction (F := Ideal) .add [1] S32 (exp (shifted x0)) 0x00000000#32 reduces_S32x50257_S32 (.inl rfl) rfl)
      shapeCasts_S32_S32x1))

/-- Row `p` of that column is the specification's log-softmax of row `p` at its label. -/
theorem logptCol_apply (x0 : Vec Ideal S32x50257 .f32) (x1 : Vec Ideal S32x1 .i32) (p : Fin 32)
    (hw : (x1 (ix2 p (0 : Fin 1))).toNat < 50257) :
    logptCol x0 x1 (ix2 p (0 : Fin 1))
      = Cert.FocalSpec.logpt (fun q => x0 (ix2 p q)) (Cert.FocalSpec.col (x1 (ix2 p (0 : Fin 1)))) := by
  unfold logptCol Cert.FocalSpec.logpt
  refine (subf_apply _ _ _).trans ?_
  refine congrArg₂ (fun a b : EReal => a - b) ((cast_col_apply _ p).trans (sel_apply x0 x1 p hw)) ?_
  exact (log_at _ _).trans (congrArg Ideal.log ((cast_col_apply _ p).trans (sumexp_apply x0 p)))

/-- The kernel's pointwise tail over a column `lp`: `pt = exp lp`, `om = 1 − pt`, the products of `om`, the two
    comparisons of `pt` with the thresholds, the two selects, zero less the selected product, times `lp`. -/
def tail (lp : FVec Ideal S32x1 .f32) : FVec Ideal S32x1 .f32 :=
  have v19 : FVec Ideal S32x1 .f32 := exp lp
  have v21 : FVec Ideal S32x1 .f32 := subf (broadcast S32x1 (Scalar.ofBits (F := Ideal) .f32 0x3F800000#32)) v19
  have v22 : FVec Ideal S32x1 .f32 := mulf v21 v21
  have v23 : FVec Ideal S32x1 .f32 := mulf v22 v21
  have v24 : FVec Ideal S32x1 .f32 := mulf v23 v21
  have v25 : FVec Ideal S32x1 .f32 := mulf v24 v21
  have v27 : IVec S32x1 1 := cmpf .olt v19 (broadcast S32x1 (Scalar.ofBits (F := Ideal) .f32 0x3E4CCCCD#32))
  have v29 : IVec S32x1 1 := cmpf .olt v19 (broadcast S32x1 (Scalar.ofBits (F := Ideal) .f32 0x3F000000#32))
  have v30 : FVec Ideal S32x1 .f32 := select v29 v23 v21
  have v31 : FVec Ideal S32x1 .f32 := select v27 v25 v30
  have v33 : FVec Ideal S32x1 .f32 := subf (broadcast S32x1 (Scalar.ofBits (F := Ideal) .f32 0x00000000#32)) v31
  mulf v33 lp

/-- Entry by entry the tail is the specification's row loss. -/
theorem tail_apply (lp : FVec Ideal S32x1 .f32) (j : S32x1.Idx) : tail lp j = Cert.FocalSpec.rowLoss (lp j) := rfl

set_option maxRecDepth 65536 in
/-- The stored column is the tail of the log-softmax column. -/
theorem pay_eq (x0 : Vec Ideal S32x50257 .f32) (x1 : Vec Ideal S32x1 .i32) :
    k0_pay1 (F := Ideal) x0 x1 = tail (logptCol x0 x1) := rfl

/-- Row `p` of the stored block is the focal loss of row `p` of the logits block at the label in row `p`. -/
theorem pay_apply (x0 : Vec Ideal S32x50257 .f32) (x1 : Vec Ideal S32x1 .i32) (p : Fin 32)
    (hw : (x1 (ix2 p (0 : Fin 1))).toNat < 50257) :
    k0_pay1 (F := Ideal) x0 x1 (ix2 p (0 : Fin 1))
      = Cert.FocalSpec.rowLoss (Cert.FocalSpec.logpt (fun q => x0 (ix2 p q)) (Cert.FocalSpec.col (x1 (ix2 p (0 : Fin 1))))) :=
  ((congrFun (pay_eq x0 x1) _).trans (tail_apply _ _)).trans
    (congrArg Cert.FocalSpec.rowLoss (logptCol_apply x0 x1 p hw))

end Cert.KernelIdeal.RowValue

end
-- ==== Proof.KernelArray.lean ====
/-
  The kernel's run, read: the result buffer ends at the mean of the 2048 rows' focal losses.

  The pallas_call walks 64 grid points; at point `t` it stages rows 32·t … 32·t+31 of the logits and of the (reshaped)
  labels and writes back rows 32·t … 32·t+31 of a [2048, 1] array. What the body leaves in row `p` of its block is the
  focal loss of row `p` of the logits block at the label in row `p` (KernelRow), so the written block is block `t` of
  ONE whole-array function of the arguments, `rows`; the 64 blocks tile the array, so the array ends at `rows`.
  The host lines after the call sum the array from 0 and divide by 2048.
-/
import proofs.«431111_j5978594476648_2_alg».proof.Proof.Gen.KernelIdeal.Frame
import proofs.«431111_j5978594476648_2_alg».proof.Proof.KernelRow
import proofs.«431111_j5978594476648_2_alg».proof.Proof.FocalSpec
import Idealize.ShloMosaic.Lib.Pipeline.Value
import Idealize.ShloMosaic.Lib.ValueIdx
import Idealize.ShloMosaic.PureOps.Ideal.Laws
import Idealize.ShloMosaic.Lib.StableHlo.Run

set_option maxRecDepth 16384

noncomputable section

namespace Cert.KernelIdeal.ArrayValue

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-- The row an index of the [2048, 1] array lies in. -/
def rowOf (i : S2048x1.Idx) : Fin 2048 := ⟨(i 0).val, idx2_lt0 i⟩

/-- The per-row losses as one function of the two argument arrays. -/
def rows (X : S2048x50257.Idx → EReal) (T : S2048.Idx → BitVec 32) : S2048x1.Idx → EReal :=
  fun i => Cert.FocalSpec.rowLoss (Cert.FocalSpec.logpt (fun q => X (ix2 (rowOf i) q)) (Cert.FocalSpec.col (T (ix1 (rowOf i)))))

theorem hz : (![0, 0] : Fin 2 → Nat) = fun _ => 0 := funext fun a => by fin_cases a <;> rfl

/-- The labels as the call finds them: the label vector viewed as a column. -/
theorem V_main_v0 (c : Dev nD) :
    (V m c main_v0 : S2048x1.Idx → BitVec 32) = shapeCast S2048x1 (m ((c : Thread nD τ).loc main_arg1)) shapeCasts_S2048_S2048x1 := by
  show StableHlo.after hostOps0 (fun b => m (c, b)) (Proc.devRef .tc main_v0) = _
  after_results
  rfl

/-- Row `r` of that column is label `r`. -/
theorem V_main_v0_apply (c : Dev nD) (r : Fin 2048) :
    (V m c main_v0 : S2048x1.Idx → BitVec 32) (ix2 r (0 : Fin 1)) = m ((c : Thread nD τ).loc main_arg1) (ix1 r) := by
  rw [V_main_v0]
  exact shapeCast_apply _ shapeCasts_S2048_S2048x1 (ix2 r (0 : Fin 1)) (ix1 r)
    (by rw [Shape.rowMajor_val_one, Shape.rowMajor_val_two]; show r.val = r.val * 1 + 0; omega)

/-- The printed index maps, decided over the grid: every window's block at point `t` is block row `t`, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Entry (p, q) of the logits block at point `t` is entry (32·t + p, q) of the logits. -/
theorem iblk0_apply (c : Dev nD) (t : Fin cfg0.N) (p : Fin 32) (q : Fin 50257) (r : Fin 2048) (hr : r.val = t.val * 32 + p.val) :
    iblk m c 0 t (ix2 p q) = m ((c : Thread nD τ).loc main_arg0) (ix2 r q) := by
  show V m c main_arg0 (((cfg0.win 0).blk t).view.emb (ix2 p q)) = _
  rw [V_main_arg0]
  refine congrArg _ ?_
  obtain ⟨e0, e1, -⟩ := idx_facts t
  funext a; apply Fin.ext
  match a with
  | ⟨0, _⟩ => show win0_0.index t (0 : Fin 2) * 32 + 1 * p.val = r.val; omega
  | ⟨1, _⟩ => show win0_0.index t (1 : Fin 2) * 50257 + 1 * q.val = q.val; omega

/-- Entry (p, 0) of the label block at point `t` is label 32·t + p. -/
theorem iblk1_apply (c : Dev nD) (t : Fin cfg0.N) (p : Fin 32) (r : Fin 2048) (hr : r.val = t.val * 32 + p.val) :
    iblk m c 1 t (ix2 p (0 : Fin 1)) = m ((c : Thread nD τ).loc main_arg1) (ix1 r) := by
  rw [← V_main_v0_apply m c r]
  show V m c main_v0 (((cfg0.win 1).blk t).view.emb (ix2 p (0 : Fin 1))) = _
  refine congrArg _ ?_
  obtain ⟨-, -, e0, e1, -⟩ := idx_facts t
  funext a; apply Fin.ext
  match a with
  | ⟨0, _⟩ => show win0_1.index t (0 : Fin 2) * 32 + 1 * p.val = r.val; omega
  | ⟨1, _⟩ => show win0_1.index t (1 : Fin 2) * 1 + 1 * 0 = 0; omega

/-- WHAT POINT `t` WRITES BACK is block `t` of `rows` of the argument arrays, for labels below 50257. -/
theorem flushed_eq (hT : ∀ (c : Dev nD) (r : Fin 2048), (m ((c : Thread nD τ).loc main_arg1) (ix1 r)).toNat < 50257)
    (c : Dev nD) (t : Fin cfg0.N) :
    (dats m 0 c).flushed 2 t
      = ((cfg0.win 2).blk t).view.read (Elt Ideal) (rows (m ((c : Thread nD τ).loc main_arg0)) (m ((c : Thread nD τ).loc main_arg1))) := by
  show (cfg0.win 2).cut (grid0.coords t) ((dats m 0 c).after 2 t) = _
  rw [after0_2]
  unfold out0_2
  rw [View.canon_unit_zero hz]
  simp only [View.ld_unit_zero (S := S32x50257) hz, View.ld_unit_zero (S := S32x1) hz]
  funext j
  obtain ⟨p, q, rfl⟩ : ∃ (p : Fin 32) (q : Fin 1), j = ix2 p q := ⟨j 0, j 1, eq_ix2 j⟩
  obtain rfl : q = 0 := Subsingleton.elim _ _
  have ht : t.val < 64 := by have := t.isLt; have h64 : cfg0.N = 64 := N_0; omega
  let r : Fin 2048 := ⟨t.val * 32 + p.val, by have := p.isLt; omega⟩
  have hr : r.val = t.val * 32 + p.val := rfl
  have hw : (iblk m c 1 t (ix2 p (0 : Fin 1))).toNat < 50257 := by rw [iblk1_apply m c t p r hr]; exact hT c r
  refine (Cert.KernelIdeal.RowValue.pay_apply (iblk m c 0 t) (iblk m c 1 t) p hw).trans ?_
  have hrow : rowOf (((cfg0.win 2).blk t).view.emb (ix2 p (0 : Fin 1))) = r := by
    apply Fin.ext
    obtain ⟨-, -, -, -, e0, e1⟩ := idx_facts t
    show win0_2.index t (0 : Fin 2) * 32 + 1 * p.val = t.val * 32 + p.val
    omega
  show _ = rows _ _ (((cfg0.win 2).blk t).view.emb (ix2 p (0 : Fin 1)))
  unfold rows
  rw [hrow, iblk1_apply m c t p r hr]
  refine congrArg Cert.FocalSpec.rowLoss (congrArg (fun f => Cert.FocalSpec.logpt f _) ?_)
  funext q
  exact iblk0_apply m c t p q r hr

/-- An index of the array is in point `t`'s block iff each coordinate is in the block's range on its axis. -/
theorem mem_blk (t : Fin cfg0.N) (i : S2048x1.Idx) :
    i ∈ ((cfg0.win 2).blk t).view.set ↔ ∀ a : Fin 2, win0_2.index t a * S32x1.size a ≤ (i a).val ∧ (i a).val < win0_2.index t a * S32x1.size a + S32x1.size a := by
  show i ∈ ((View.whole main_v1).slice (win0_2.rect t)).set ↔ _
  rw [View.set_slice_whole, Rect.mem_set_unit]
  exact Iff.rfl

/-- The 64 blocks tile the array: row `r` lies in the block of point `r / 32`. -/
theorem cover (i : S2048x1.Idx) : ∃ t : Fin cfg0.N, (cfg0.win 2).flush t = true ∧ i ∈ ((cfg0.win 2).blk t).view.set := by
  have hi0 : (i 0).val < 2048 := idx2_lt0 i
  have hi1 : (i 1).val < 1 := idx2_lt1 i
  let t : Fin cfg0.N := ⟨(i 0).val / 32, by have h64 : cfg0.N = 64 := N_0; omega⟩
  refine ⟨t, flush0_2 t, ?_⟩
  rw [mem_blk]
  obtain ⟨-, -, -, -, e0, e1⟩ := idx_facts t
  have ht : t.val = (i 0).val / 32 := rfl
  intro a
  match a with
  | ⟨0, _⟩ => show win0_2.index t (0 : Fin 2) * 32 ≤ (i 0).val ∧ (i 0).val < win0_2.index t (0 : Fin 2) * 32 + 32; omega
  | ⟨1, _⟩ => show win0_2.index t (1 : Fin 2) * 1 ≤ (i 1).val ∧ (i 1).val < win0_2.index t (1 : Fin 2) * 1 + 1; omega

/-- THE ARRAY after the call: the per-row losses. -/
theorem final (hT : ∀ (c : Dev nD) (r : Fin 2048), (m ((c : Thread nD τ).loc main_arg1) (ix1 r)).toNat < 50257) (c : Dev nD) :
    (dats m 0 c).arrAt 2 cfg0.N = rows (m ((c : Thread nD τ).loc main_arg0)) (m ((c : Thread nD τ).loc main_arg1)) :=
  (dats m 0 c).arrAt_eq_of_cover 2 _ (fun t _ => flushed_eq m hT c t) cover

/-- A sum over the [2048, 1] array's indices is the sum over its rows. -/
theorem sum_rows (f : S2048x1.Idx → EReal) : ∑ i, f i = ∑ r : Fin 2048, f (ix2 r (0 : Fin 1)) := by
  rw [sum_idx2]
  refine Finset.sum_congr rfl fun r _ => ?_
  exact Fin.sum_univ_one _

/-- THE RESULT after the host lines that follow the call: the mean of the rows' losses. -/
theorem tail_eq (hT : ∀ (c : Dev nD) (r : Fin 2048), (m ((c : Thread nD τ).loc main_arg1) (ix1 r)).toNat < 50257) (c : Dev nD) :
    Pipeline.afterTail₀ cfgs (dats m) 0 (V0 m) [hostOps1] c main_v3
      = fun _ => Cert.FocalSpec.total (m ((c : Thread nD τ).loc main_arg0)) (m ((c : Thread nD τ).loc main_arg1)) := by
  unfold Pipeline.afterTail₀
  show StableHlo.after hostOps1 _ (Proc.devRef .tc main_v3) = _
  after_results
  have hA : Pipeline.withArrays (cfgs 0).spec c (V0 m c) (fun w => (dats m 0 c).arrAt w (cfgs 0).N) (Proc.devRef .tc main_v1)
      = rows (m ((c : Thread nD τ).loc main_arg0)) (m ((c : Thread nD τ).loc main_arg1)) :=
    (Pipeline.withArrays_arr spec0 launch0.win.arr_inj c _ _ 2).trans (final m hT c)
  rw [hA]
  funext i
  have hsum : Host.reduceAdd (rows (m ((c : Thread nD τ).loc main_arg0)) (m ((c : Thread nD τ).loc main_arg1)))
        (constant (F := Ideal) S_ .f32 0#32) reducesTo_S2048x1_S_d0_1 h_S_ i
      = Ideal.ofBits .f32 0#32
        + ∑ j : S2048x1.Idx, rows (m ((c : Thread nD τ).loc main_arg0)) (m ((c : Thread nD τ).loc main_arg1)) j := by
    generalize rows (m ((c : Thread nD τ).loc main_arg0)) (m ((c : Thread nD τ).loc main_arg1)) = y0
    simp only [Host.reduceAdd, Ideal.hostReduceAdd_def]
    exact Ideal.hostReduceAdd_total reducesTo_S2048x1_S_d0_1 (fun b => b.elim0) y0 _ i
  show Ideal.div (Host.reduceAdd _ (constant (F := Ideal) S_ .f32 0#32) reducesTo_S2048x1_S_d0_1 h_S_ i) (Ideal.ofBits .f32 0x45000000#32) = _
  rw [hsum, sum_rows]
  rfl

/-- THE KERNEL'S RUN, READ: every weakly fair execution ends with the result buffer at the mean of the rows' losses
    and the two argument arrays unchanged, for labels below 50257. -/
theorem run_value (hT : ∀ (c : Dev nD) (r : Fin 2048), (m ((c : Thread nD τ).loc main_arg1) (ix1 r)).toNat < 50257) :
    θ_run defs (onTc (τ := τ) (main (F := Ideal))) ⟨m, fun _ => 0, ρ⟩ (fun r => ∀ c : Dev nD,
      r.2.mem ((c.tc : Thread nD τ).loc main_v3)
          = (fun _ => Cert.FocalSpec.total (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v3 (Pipeline.mem_restRefs_of main_v3 (by decide) (by decide))).trans (tail_eq m hT c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c)⟩)
    (run_main m ρ)

end Cert.KernelIdeal.ArrayValue

end
-- ==== Proof.RefStages.lean ====
/-
  The reference's run, stretch by stretch.

  The reference's @main is a line of 65 host operations: the label reshape and @log_softmax (16 operations), @take_along_axis
  (22), and the reshape, the pointwise tail, the final sum and the quotient (27). After each stretch the buffers it wrote hold the
  stretch's operations composed, as functions of the buffers it read; composing the three gives the last buffer as the
  stage function `val_main_v18` of the two argument arrays. A value a called function writes or reads goes through a
  transport along an equality of buffer types that holds by computation; such a transport there and back is the identity
  (`ofBuf_toBuf`), and at a literal buffer it is the identity outright (the lemmas `ofBuf_…` / `toBuf_…`).
-/
import proofs.«431111_j5978594476648_2_alg».proof.Proof.RefRead
import Idealize.ShloMosaic.Lib.StableHlo.Run

set_option maxRecDepth 16384

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-- A value carried to a typed reference's buffer and back is the value. -/
theorem ofBuf_toBuf {sig : RefSig} {Val : EltTy → Type} {T : BufTy} (x : TRef sig T) (v : T.Contents Val) :
    x.ofBuf (x.toBuf v) = v := by
  obtain ⟨r, h, a, b⟩ := x
  subst h
  rfl

/-- The contents after two lines in a row. -/
theorem after_app {Val : EltTy → Type} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

variable {F : FTy → Type} [FloatOps F]

/-! ## At a literal buffer the transport is the identity -/

theorem ofBuf_arg0 (p1 p2 p3) (w : (Proc.devRef (τ := τ) .tc main_arg0).ty.Contents (Elt F)) :
    (TRef.of (T := ⟨S2048x50257, .f32⟩) main_arg0 p1 p2 p3).ofBuf w = w := rfl
theorem ofBuf_v1 (p1 p2 p3) (w : (Proc.devRef (τ := τ) .tc main_v1).ty.Contents (Elt F)) :
    (TRef.of (T := ⟨S2048x50257, .f32⟩) main_v1 p1 p2 p3).ofBuf w = w := rfl
theorem toBuf_v1 (p1 p2 p3) (w : (⟨S2048x50257, .f32⟩ : BufTy).Contents (Elt F)) :
    (TRef.of (T := ⟨S2048x50257, .f32⟩) main_v1 p1 p2 p3).toBuf w = w := rfl
theorem ofBuf_v0 (p1 p2 p3) (w : (Proc.devRef (τ := τ) .tc main_v0).ty.Contents (Elt F)) :
    (TRef.of (T := ⟨S2048x1, .i32⟩) main_v0 p1 p2 p3).ofBuf w = w := rfl
theorem toBuf_v2 (p1 p2 p3) (w : (⟨S2048x1, .f32⟩ : BufTy).Contents (Elt F)) :
    (TRef.of (T := ⟨S2048x1, .f32⟩) main_v2 p1 p2 p3).toBuf w = w := rfl
theorem ofBuf_v8 (p1 p2 p3) (w : (Proc.devRef (τ := τ) .tc main_v8).ty.Contents (Elt F)) :
    (TRef.of (T := ⟨S2048, .i1⟩) main_v8 p1 p2 p3).ofBuf w = w := rfl
theorem ofBuf_v6 (p1 p2 p3) (w : (Proc.devRef (τ := τ) .tc main_v6).ty.Contents (Elt F)) :
    (TRef.of (T := ⟨S2048, .i1⟩) main_v6 p1 p2 p3).ofBuf w = w := rfl
theorem ofBuf_cst_1 (p1 p2 p3) (w : (Proc.devRef (τ := τ) .tc main_cst_1).ty.Contents (Elt F)) :
    (TRef.of (T := ⟨S_, .f32⟩) main_cst_1 p1 p2 p3).ofBuf w = w := rfl
theorem ofBuf_cst_2 (p1 p2 p3) (w : (Proc.devRef (τ := τ) .tc main_cst_2).ty.Contents (Elt F)) :
    (TRef.of (T := ⟨S_, .f32⟩) main_cst_2 p1 p2 p3).ofBuf w = w := rfl
theorem ofBuf_cst_3 (p1 p2 p3) (w : (Proc.devRef (τ := τ) .tc main_cst_3).ty.Contents (Elt F)) :
    (TRef.of (T := ⟨S_, .f32⟩) main_cst_3 p1 p2 p3).ofBuf w = w := rfl
theorem ofBuf_v9 (p1 p2 p3) (w : (Proc.devRef (τ := τ) .tc main_v9).ty.Contents (Elt F)) :
    (TRef.of (T := ⟨S2048, .f32⟩) main_v9 p1 p2 p3).ofBuf w = w := rfl
theorem toBuf_v9 (p1 p2 p3) (w : (⟨S2048, .f32⟩ : BufTy).Contents (Elt F)) :
    (TRef.of (T := ⟨S2048, .f32⟩) main_v9 p1 p2 p3).toBuf w = w := rfl
theorem toBuf_v10 (p1 p2 p3) (w : (⟨S2048, .f32⟩ : BufTy).Contents (Elt F)) :
    (TRef.of (T := ⟨S2048, .f32⟩) main_v10 p1 p2 p3).toBuf w = w := rfl

/-! ## The three stretches -/

/-- The label reshape and @log_softmax. -/
abbrev opsA : List (HloOp τ sig (Elt F)) := (ops (F := F)).take 16
/-- @take_along_axis. -/
abbrev opsB : List (HloOp τ sig (Elt F)) := ((ops (F := F)).drop 16).take 22
/-- The pointwise tail, the sum and the quotient. -/
abbrev opsC : List (HloOp τ sig (Elt F)) := ((ops (F := F)).drop 16).drop 22

theorem ops_split : (ops : List (HloOp τ sig (Elt F))) = opsA ++ (opsB ++ opsC) := by
  show ops = (ops (F := F)).take 16 ++ (((ops (F := F)).drop 16).take 22 ++ ((ops (F := F)).drop 16).drop 22)
  rw [List.take_append_drop, List.take_append_drop]

/-- After the first stretch the log-softmax buffer holds the log-softmax stage of the logits as found, -/
theorem stageA1 (V : Valuation τ sig (Elt F)) :
    after (opsA (F := F)) V (Proc.devRef .tc main_v1) = val_main_v1 (F := F) (V (Proc.devRef .tc main_arg0)) := by
  simp only [opsA, ops, List.take_succ_cons, List.take_zero]
  after_results_simp
  simp only [ofBuf_toBuf]
  simp only [ofBuf_arg0, toBuf_v1]
  rfl

/-- and the column buffer the labels as a column. -/
theorem stageA0 (V : Valuation τ sig (Elt F)) :
    after (opsA (F := F)) V (Proc.devRef .tc main_v0) = val_main_v0 (F := F) (V (Proc.devRef .tc main_arg1)) := by
  simp only [opsA, ops, List.take_succ_cons, List.take_zero]
  after_results_simp
  rfl

/-- After the second stretch the gathered buffer holds the gather stage, of a log-softmax buffer and a column buffer that
    held theirs. -/
theorem stageB (W : Valuation τ sig (Elt F)) (X : (⟨S2048x50257, .f32⟩ : BufTy).Contents (Elt F)) (T : (⟨S2048, .i32⟩ : BufTy).Contents (Elt F))
    (h1 : W (Proc.devRef .tc main_v1) = val_main_v1 (F := F) X) (h0 : W (Proc.devRef .tc main_v0) = val_main_v0 (F := F) T) :
    after (opsB (F := F)) W (Proc.devRef .tc main_v2) = val_main_v2 (F := F) X T := by
  simp only [opsB, ops, List.drop_succ_cons, List.drop_zero, List.take_succ_cons, List.take_zero]
  after_results_simp
  simp only [ofBuf_toBuf]
  simp only [ofBuf_v1, ofBuf_v0, toBuf_v2]
  rw [h1, h0]
  rfl

/-- After the third stretch the result buffer holds the last stage, of a gathered buffer that held its. -/
theorem stageC (W : Valuation τ sig (Elt F)) (X : (⟨S2048x50257, .f32⟩ : BufTy).Contents (Elt F)) (T : (⟨S2048, .i32⟩ : BufTy).Contents (Elt F))
    (h2 : W (Proc.devRef .tc main_v2) = val_main_v2 (F := F) X T) :
    after (opsC (F := F)) W (Proc.devRef .tc main_v18) = val_main_v18 (F := F) X T := by
  simp only [opsC, ops, List.drop_succ_cons, List.drop_zero]
  after_results_simp
  simp only [ofBuf_toBuf]
  simp only [ofBuf_v8, ofBuf_v6, ofBuf_cst_1, ofBuf_cst_2, ofBuf_cst_3, ofBuf_v9, toBuf_v9, toBuf_v10]
  rw [h2]
  rfl

/-- THE RESULT after the whole line: the last stage of the two argument arrays as found. -/
theorem value (V : Valuation τ sig (Elt F)) :
    after (ops (F := F)) V (Proc.devRef .tc main_v18)
      = val_main_v18 (F := F) (V (Proc.devRef .tc main_arg0)) (V (Proc.devRef .tc main_arg1)) := by
  rw [ops_split, after_app, after_app]
  exact stageC _ _ _ (stageB _ _ _ (stageA1 V) (stageA0 V))

set_option maxRecDepth 8192 in
set_option maxHeartbeats 26000000 in
/-- On every device, for any float values, from any memory with zero counters: every weakly fair execution of @main
    terminates with the result buffer at the last stage of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18)
          = val_main_v18 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v18).trans (value (launchContents m c)),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.Stages

end
-- ==== Proof.RefLogp.lean ====
/-
  The reference's gathered log-softmax, read at a row: for labels in range it is FocalSpec.logpt of the row.
-/
import proofs.«431111_j5978594476648_2_alg».proof.Proof.RefRead
import proofs.«431111_j5978594476648_2_alg».proof.Proof.FocalSpec
import Idealize.ShloMosaic.Lib.Pipeline.Value
import Idealize.ShloMosaic.Lib.ValueIdx
import Idealize.ShloMosaic.PureOps.Ideal.Laws
import Idealize.ShloMosaic.PureOps.Reduce
import Idealize.ShloMosaic.Lib.ReduceAll
import Idealize.ShloMosaic.Lib.Affine

noncomputable section

namespace Cert.ReferenceIdeal.RefLogp

open Cert.ReferenceIdeal Cert.ReferenceIdeal.Gen Cert.ReferenceIdeal.ReadP Idealize.ShloMosaic Idealize.ShloMosaic.ValueIdx

/-- The f32 word of minus infinity is the bottom extended real. -/
theorem ofBits_ninf : Ideal.ofBits .f32 0xFF800000#32 = (⊥ : EReal) := by
  simp [Ideal.ofBits, Ideal.ieee]

/-- The logits' shape with its column axis dropped is the rows' shape. -/
theorem red1 : S2048x50257.Reduces [1] S2048 := by decide

/-- Row `r` with column `k` inserted is the index `(r, k)`. -/
theorem lift_row (r : Fin 2048) (k : Fin 50257) :
    red1.lift (ix1 r) k = ix2 r k := by
  funext a
  match a with
  | ⟨0, _⟩ => rfl
  | ⟨1, _⟩ => rfl

/-- The max-reduce over the columns, at row `r`, is the row's maximum. -/
theorem v0_apply (X : (⟨S2048x50257, .f32⟩ : BufTy).Contents (Elt Ideal)) (r : Fin 2048) :
    val_main_call0_v0 (F := Ideal) X (ix1 r) = Cert.FocalSpec.rowMax (fun q => X (ix2 r q)) := by
  unfold val_main_call0_v0
  have e := Host.reduce_eq_fold_single (a := (1 : Fin 2)) (FloatOps.maximumf (F := Ideal) (φ := .f32)) X
    (val_main_call0_cst (F := Ideal)) reducesTo_S2048x50257_S2048_d1 red1 h_S_ (ix1 r)
  refine e.trans ?_
  have e1 : (X ∘ red1.lift (ix1 r)) = fun q : Fin 50257 => X (ix2 r q) := funext fun k => congrArg X (lift_row r k)
  have e2 : val_main_call0_cst (F := Ideal) (Shape.Idx.first h_S_) = (⊥ : EReal) := ofBits_ninf
  rw [e1, e2]
  rfl

/-- The reference's row maximum (the max-reduce joined once more with minus infinity) at row `r`. -/
theorem rowmax_apply (X : (⟨S2048x50257, .f32⟩ : BufTy).Contents (Elt Ideal)) (r : Fin 2048) :
    val_main_call0_v2 (F := Ideal) X (ix1 r) = Cert.FocalSpec.rowMax (fun q => X (ix2 r q)) := by
  rw [val_main_call0_v2_apply, val_main_call0_v1_apply, val_main_call0_cst_0_apply, v0_apply]
  show max (Ideal.ofBits .f32 0xFF800000#32) _ = _
  rw [ofBits_ninf]
  exact max_eq_right bot_le

/-- The shifted logit at `(r, q)`: the logit less its row's maximum. -/
theorem shifted_apply (X : (⟨S2048x50257, .f32⟩ : BufTy).Contents (Elt Ideal)) (r : Fin 2048) (q : Fin 50257) :
    val_main_call0_v5 (F := Ideal) X (ix2 r q)
      = X (ix2 r q) - Cert.FocalSpec.rowMax (fun q => X (ix2 r q)) := by
  rw [val_main_call0_v5_apply, val_main_call0_v4_apply, val_main_call0_v3_apply]
  have e : idx_main_call0_v3 (idx_main_call0_v4 (ix2 r q)) = ix1 r := by
    funext a
    match a with
    | ⟨0, _⟩ => rfl
  rw [e, rowmax_apply]
  rfl

/-- The sum of the exponentials of row `r`'s shifted logits. -/
theorem sumexp_apply (X : (⟨S2048x50257, .f32⟩ : BufTy).Contents (Elt Ideal)) (r : Fin 2048) :
    val_main_call0_v7 (F := Ideal) X (ix1 r)
      = ∑ k : Fin 50257, Ideal.exp (X (ix2 r k) - Cert.FocalSpec.rowMax (fun q => X (ix2 r q))) := by
  rw [val_main_call0_v7_apply]
  have e0 : val_main_call0_cst_1 (F := Ideal) (Shape.Idx.first h_S_) = (0 : EReal) := Ideal.ofBits_zero_f32
  rw [e0, zero_add]
  refine Finset.sum_congr rfl fun k _ => ?_
  have e : idx_main_call0_v7 (ix1 r) k = ix2 r k := by
    funext a
    match a with
    | ⟨0, _⟩ => rfl
    | ⟨1, _⟩ => rfl
  rw [e, val_main_call0_v6_apply, shifted_apply]
  rfl

/-- The log-softmax of the logits at `(r, q)`. -/
theorem logsoftmax_apply (X : (⟨S2048x50257, .f32⟩ : BufTy).Contents (Elt Ideal)) (r : Fin 2048) (q : Fin 50257) :
    val_main_v1 (F := Ideal) X (ix2 r q)
      = Cert.FocalSpec.logpt (fun q => X (ix2 r q)) q := by
  rw [val_main_v1_apply, shifted_apply, val_main_call0_v10_apply, val_main_call0_v9_apply, val_main_call0_v8_apply]
  have e : idx_main_call0_v8 (idx_main_call0_v10 (ix2 r q)) = ix1 r := by
    funext a
    match a with
    | ⟨0, _⟩ => rfl
  rw [e, sumexp_apply, Ideal.subf_def, Ideal.hostUnary_log_def]
  unfold Cert.FocalSpec.logpt
  rfl

/-- A word below 50257 is not negative as a signed word. -/
theorem toInt_of_lt (w : BitVec 32) (hw : w.toNat < 50257) : w.toInt = (w.toNat : Int) :=
  BitVec.toInt_eq_toNat_of_lt (by omega)

/-- The wrapped label (a negative label has the row length added) is, for a label below 50257, the label itself. -/
theorem wrapped_apply (T : (⟨S2048, .i32⟩ : BufTy).Contents (Elt Ideal))
    (hT : ∀ r : Fin 2048, (T (ix1 r)).toNat < 50257) (r : Fin 2048) (a b : Fin 1) :
    val_main_call1_v5 (F := Ideal) T (ix3 r a b) = T (ix1 r) := by
  have e : idx_main_v0 (idx_main_call1_v5 (ix3 r a b)) = ix1 r := by
    funext c
    match c with
    | ⟨0, _⟩ =>
      refine Fin.ext ?_
      have ha : a.val < 1 := a.isLt
      have hb : b.val < 1 := b.isLt
      show (((r.val * 1 + a.val) * 1 + b.val) / 1) * 1 + 0 = r.val
      omega
  rw [val_main_call1_v5_apply, val_main_call1_v4_apply, val_main_call1_v1_apply, val_main_v0_apply, e,
    val_main_call1_v0_apply, val_main_call1_c_apply]
  have hlt : IntOp.cmpi .slt (T (ix1 r)) 0#32 = 0#1 := by
    refine eq_zero_of_ne_one fun h => ?_
    have h' := IntOp.cmpi_slt.mp h
    rw [toInt_of_lt _ (hT r)] at h'
    have : (0#32 : BitVec 32).toInt = 0 := rfl
    omega
  rw [hlt, select_zero]

/-- The index array's shape with its unit axis 2 dropped is the result's shape. -/
theorem red2 : S2048x1x1.Reduces [2] S2048x1 := by decide

/-- The one index over `(r, c)` on the dropped unit axis. -/
theorem lift_unit (r : Fin 2048) (c : Fin 1) (k : Fin 1) :
    red2.lift (ix2 r c) k = ix3 r c k := by
  funext a
  match a with
  | ⟨0, _⟩ => rfl
  | ⟨1, _⟩ => rfl
  | ⟨2, _⟩ => rfl

/-- For a label below 50257 the wrapped label is within `[0, 50256]`: the bounds bit is set. -/
theorem inbounds_apply (T : (⟨S2048, .i32⟩ : BufTy).Contents (Elt Ideal))
    (hT : ∀ r : Fin 2048, (T (ix1 r)).toNat < 50257) (r : Fin 2048) (a b : Fin 1) :
    val_main_call1_v11 (F := Ideal) T (ix3 r a b) = 1#1 := by
  rw [val_main_call1_v11_apply, val_main_call1_v7_apply, val_main_call1_v10_apply, wrapped_apply T hT,
    val_main_call1_v6_apply, val_main_call1_c_2_apply, val_main_call1_v9_apply, val_main_call1_v8_apply,
    val_main_call1_c_1_apply]
  refine IntOp.andi_eq_one.mpr ⟨IntOp.cmpi_sge.mpr ?_, IntOp.cmpi_sle.mpr ?_⟩
  · rw [toInt_of_lt _ (hT r)]
    have : (0#32 : BitVec 32).toInt = 0 := rfl
    omega
  · rw [toInt_of_lt _ (hT r)]
    have : (50256#32 : BitVec 32).toInt = 50256 := rfl
    have := hT r
    omega

/-- A fold of `and` over a one-element axis is the one element joined with the initial value. -/
theorem fold_andi_unit (b : BitVec 1) (f : Fin 1 → BitVec 1) :
    (Finset.univ : Finset (Fin 1)).fold IntOp.andi b f = IntOp.andi (f 0) b := by
  rw [Finset.univ_unique, Finset.fold_singleton]
  rfl

/-- The and-reduce of the bounds bit over the unit axis: set, for labels below 50257. -/
theorem mask_apply (T : (⟨S2048, .i32⟩ : BufTy).Contents (Elt Ideal))
    (hT : ∀ r : Fin 2048, (T (ix1 r)).toNat < 50257) (r : Fin 2048) (c : Fin 1) :
    val_main_call1_v12 (F := Ideal) T (ix2 r c) = 1#1 := by
  unfold val_main_call1_v12
  have e := Host.reduce_eq_fold_single (a := (2 : Fin 3)) (IntOp.andi (w := 1)) (val_main_call1_v11 (F := Ideal) T)
    (val_main_call1_c_3 (F := Ideal)) reducesTo_S2048x1x1_S2048x1_d2 red2 h_S_ (ix2 r c)
  refine e.trans ?_
  refine (fold_andi_unit _ _).trans ?_
  refine IntOp.andi_eq_one.mpr ⟨?_, rfl⟩
  show val_main_call1_v11 (F := Ideal) T (red2.lift (ix2 r c) (0 : Fin 1)) = 1#1
  rw [lift_unit, inbounds_apply T hT]

/-- The gather's source index at result `(r, c)`: row `r`, and the column the start index word names when it is below
    the row length. -/
theorem gather_idx (idx : IVec S2048x1x1 32) (r : Fin 2048) (c : Fin 1)
    (hw : (idx (ix3 r c (0 : Fin 1))).toNat < 50257) :
    gather_S2048x50257_S2048x1x1_S2048x1_n_1_0_0_1_2_11.operandIdx (ix2 r c) idx
      = ix2 r (Cert.FocalSpec.col (idx (ix3 r c (0 : Fin 1)))) := by
  have hob : (0 : Fin 2) ∈ gather_S2048x50257_S2048x1x1_S2048x1_n_1_0_0_1_2_11.operandBatchingDims :=
    List.mem_singleton.mpr rfl
  have hcd : (1 : Fin 2) ∈ gather_S2048x50257_S2048x1x1_S2048x1_n_1_0_0_1_2_11.collapsedSliceDims :=
    List.mem_singleton.mpr rfl
  have hsm : (1 : Fin 2) ∈ gather_S2048x50257_S2048x1x1_S2048x1_n_1_0_0_1_2_11.startIndexMap :=
    List.mem_singleton.mpr rfl
  have hnb : (1 : Fin 2) ∉ gather_S2048x50257_S2048x1x1_S2048x1_n_1_0_0_1_2_11.operandBatchingDims :=
    fun h => absurd (List.mem_singleton.mp h) (by decide)
  funext a
  match a with
  | ⟨0, _⟩ =>
    refine Fin.ext ?_
    show gather_S2048x50257_S2048x1x1_S2048x1_n_1_0_0_1_2_11.start (ix2 r c) idx 0
      + gather_S2048x50257_S2048x1x1_S2048x1_n_1_0_0_1_2_11.batchCoord (ix2 r c) 0
      + gather_S2048x50257_S2048x1x1_S2048x1_n_1_0_0_1_2_11.offCoord (ix2 r c) 0 = r.val
    rw [GatherDims.start_batching _ _ _ _ hob,
      GatherDims.offCoord_eq_zero _ _ _ (fun h => ((GatherDims.mem_sKept _ _).mp h).2 hob)]
    unfold GatherDims.batchCoord
    rw [dif_pos hob, Nat.zero_add, Nat.add_zero]
    rfl
  | ⟨1, _⟩ =>
    refine Fin.ext ?_
    show gather_S2048x50257_S2048x1x1_S2048x1_n_1_0_0_1_2_11.start (ix2 r c) idx 1
      + gather_S2048x50257_S2048x1x1_S2048x1_n_1_0_0_1_2_11.batchCoord (ix2 r c) 1
      + gather_S2048x50257_S2048x1x1_S2048x1_n_1_0_0_1_2_11.offCoord (ix2 r c) 1 = (Cert.FocalSpec.col (idx (ix3 r c (0 : Fin 1)))).val
    rw [GatherDims.batchCoord_eq_zero _ _ _ hnb,
      GatherDims.offCoord_eq_zero _ _ _ (fun h => ((GatherDims.mem_sKept _ _).mp h).1 hcd)]
    unfold GatherDims.start
    rw [dif_pos hsm, Nat.add_zero]
    have hsi : gather_S2048x50257_S2048x1x1_S2048x1_n_1_0_0_1_2_11.siIdx (ix2 r c)
        ⟨List.idxOf (1 : Fin 2) gather_S2048x50257_S2048x1x1_S2048x1_n_1_0_0_1_2_11.startIndexMap,
          List.idxOf_lt_length_iff.2 hsm⟩ = ix3 r c (0 : Fin 1) := by
      funext b
      refine Fin.ext ?_
      match b with
      | ⟨0, _⟩ => rfl
      | ⟨1, _⟩ => rfl
      | ⟨2, _⟩ => rfl
    have hsz : S2048x50257.size 1 - gather_S2048x50257_S2048x1x1_S2048x1_n_1_0_0_1_2_11.sliceSizes 1 = 50256 := rfl
    rw [hsi, hsz, toInt_of_lt _ hw, Int.toNat_natCast, Cert.FocalSpec.col_val _ hw]
    exact Nat.min_eq_left (by omega)

/-- Entry `r` of the reference's `logpt` vector (log_softmax along the row, the entry at the label taken, out-of-range
    labels filled) is, for labels below 50257, the label's log-softmax of row `r`. -/
theorem logpt_apply (X : (⟨S2048x50257, .f32⟩ : BufTy).Contents (Elt Ideal)) (T : (⟨S2048, .i32⟩ : BufTy).Contents (Elt Ideal))
    (hT : ∀ r : Fin 2048, (T (ix1 r)).toNat < 50257) (r : Fin 2048) :
    val_main_v3 (F := Ideal) X T (ix1 r)
      = Cert.FocalSpec.logpt (fun q => X (ix2 r q)) (Cert.FocalSpec.col (T (ix1 r))) := by
  have e3 : idx_main_v3 (ix1 r) = ix2 r (0 : Fin 1) := by
    funext a
    match a with
    | ⟨0, _⟩ => exact Fin.ext (Nat.div_one _)
    | ⟨1, _⟩ => rfl
  rw [val_main_v3_apply, e3, val_main_v2_apply, mask_apply T hT, select_one]
  show val_main_v1 (F := Ideal) X
      (gather_S2048x50257_S2048x1x1_S2048x1_n_1_0_0_1_2_11.operandIdx (ix2 r (0 : Fin 1)) (val_main_call1_v5 (F := Ideal) T)) = _
  have hw : (val_main_call1_v5 (F := Ideal) T (ix3 r (0 : Fin 1) (0 : Fin 1))).toNat < 50257 := by
    rw [wrapped_apply T hT]; exact hT r
  rw [gather_idx _ r 0 hw, wrapped_apply T hT, logsoftmax_apply]

end Cert.ReferenceIdeal.RefLogp

end
-- ==== Proof.RefTail.lean ====
/-
  The reference's result as the specification's mean: after the gathered log-softmax `logpt` the reference computes,
  entry by entry, pt = exp logpt, the exponent 5, 3 or 1 by pt's place against 0.2 and 0.5, (1 − pt) to that exponent,
  negated, times logpt — FocalSpec.rowLossRef, which is FocalSpec.rowLoss — then sums the 2048 entries from 0 and divides
  by 2048.
-/
import proofs.«431111_j5978594476648_2_alg».proof.Proof.RefRead
import proofs.«431111_j5978594476648_2_alg».proof.Proof.RefLogp
import proofs.«431111_j5978594476648_2_alg».proof.Proof.FocalSpec
import Idealize.ShloMosaic.Lib.ValueIdx
import Idealize.ShloMosaic.Lib.ValueIdxRank1
import Idealize.ShloMosaic.PureOps.Ideal.Laws

noncomputable section

namespace Cert.ReferenceIdeal.RefTail

open Cert.ReferenceIdeal Cert.ReferenceIdeal.Gen Cert.ReferenceIdeal.ReadP Idealize.ShloMosaic Idealize.ShloMosaic.ValueIdx

/-- An entry of the reference's per-row loss vector, from the same entry of its `logpt` vector. -/
theorem row_tail (X : (⟨S2048x50257, .f32⟩ : BufTy).Contents (Elt Ideal)) (T : (⟨S2048, .i32⟩ : BufTy).Contents (Elt Ideal)) (i : S2048.Idx) :
    val_main_v16 (F := Ideal) X T i = Cert.FocalSpec.rowLossRef (val_main_v3 (F := Ideal) X T i) := by
  simp only [val_main_v16_apply, val_main_v15_apply, val_main_v14_apply, val_main_v13_apply, val_main_v12_apply,
    val_main_v10_apply, val_main_v9_apply, val_main_v8_apply, val_main_v6_apply, val_main_v4_apply]
  generalize val_main_v3 (F := Ideal) X T i = lp
  rfl

/-- The reference's result is the specification's mean of the rows' losses, for labels below 50257. -/
theorem total_eq (X : (⟨S2048x50257, .f32⟩ : BufTy).Contents (Elt Ideal)) (T : (⟨S2048, .i32⟩ : BufTy).Contents (Elt Ideal))
    (hT : ∀ r : Fin 2048, (T (ix1 r)).toNat < 50257) :
    val_main_v18 (F := Ideal) X T = fun _ => Cert.FocalSpec.total X T := by
  funext i
  rw [val_main_v18_apply, val_main_v17_apply]
  have hsum : (∑ j : S2048.Idx, val_main_v16 (F := Ideal) X T j)
      = ∑ r : Fin 2048, Cert.FocalSpec.rowLoss (Cert.FocalSpec.logpt (fun q => X (ix2 r q)) (Cert.FocalSpec.col (T (ix1 r)))) := by
    rw [← Equiv.sum_comp (idxEquiv1 (n := 2048)).symm]
    refine Finset.sum_congr rfl fun r _ => ?_
    show val_main_v16 (F := Ideal) X T (ix1 r) = _
    rw [row_tail, Cert.ReferenceIdeal.RefLogp.logpt_apply X T hT r, Cert.FocalSpec.rowLossRef_eq]
  rw [hsum]
  rfl

end Cert.ReferenceIdeal.RefTail

end
-- ==== Proof.lean ====
/-
  The certificate of an adaptive focal loss kernel against its jnp reference, over the extended reals.

  Both programs map logits [2048, 50257] and labels [2048] to the mean over the rows of
      −(1 − pt)^γ · logpt,   logpt = the label's log-softmax of the row, pt = exp logpt,   γ = 5, 3 or 1 as pt < 0.2, pt < 0.5 or not.
  The kernel takes 32 rows per grid point: it shifts a row by its maximum, picks the label's shifted logit by summing the
  row against the mask "column number = label", subtracts the log of the shifted row's exponential sum, and forms the
  weight as the product (1 − pt)⁵, (1 − pt)³ or (1 − pt) selected by the two comparisons. The reference computes
  log_softmax of the whole array, takes the label's entry along the row, and raises (1 − pt) to the selected exponent.
  At the ideal values the two agree on every input whose labels lie in [0, 50257): there the masked sum is the gathered
  entry (Proof/FocalSpec.lean `sum_select_eq`, Proof/RefLogp.lean), the two row maxima are one fold, and the power at
  5, 3 or 1 is the product on every extended real (`rowLossRef_eq`). Outside that range the reference wraps a negative
  label and fills the rest with a NaN while the kernel's mask selects nothing, so the precondition states the range
  (Proof/FocalPre.lean reads it back from the printed predicate). No finiteness of the logits is used.

  The modules: FocalSpec (the specification and its two laws), FocalPre (labels below 50257 from the precondition),
  KernelRow (what the body stores in a row), KernelArray (blocks to the array, the host lines after the call, the kernel's
  run re-posted), RefRun / RefRead (the reference's operations and their stages), RefStages (the reference's run),
  RefLogp and RefTail (the reference's stages read as the specification).
-/
import proofs.«431111_j5978594476648_2_alg».proof.Defs
import proofs.«431111_j5978594476648_2_alg».proof.Proof.Gen.Kernel
import proofs.«431111_j5978594476648_2_alg».proof.Proof.Gen.Kernel.Skeleton
import proofs.«431111_j5978594476648_2_alg».proof.Proof.Gen.Kernel.Launch
import proofs.«431111_j5978594476648_2_alg».proof.Proof.Gen.Kernel.Points
import proofs.«431111_j5978594476648_2_alg».proof.Proof.Gen.Kernel.Frame
import proofs.«431111_j5978594476648_2_alg».proof.Proof.Gen.KernelIdeal
import proofs.«431111_j5978594476648_2_alg».proof.Proof.Gen.KernelIdeal.Skeleton
import proofs.«431111_j5978594476648_2_alg».proof.Proof.Gen.KernelIdeal.Launch
import proofs.«431111_j5978594476648_2_alg».proof.Proof.Gen.KernelIdeal.Points
import proofs.«431111_j5978594476648_2_alg».proof.Proof.Gen.KernelIdeal.Frame
import proofs.«431111_j5978594476648_2_alg».proof.Proof.Gen.ReferenceIdeal
import proofs.«431111_j5978594476648_2_alg».proof.Proof.Gen.Pre_finite_inputs
import proofs.«431111_j5978594476648_2_alg».proof.Proof.FocalSpec
import proofs.«431111_j5978594476648_2_alg».proof.Proof.FocalPre
import proofs.«431111_j5978594476648_2_alg».proof.Proof.KernelArray
import proofs.«431111_j5978594476648_2_alg».proof.Proof.RefStages
import proofs.«431111_j5978594476648_2_alg».proof.Proof.RefTail
import Idealize.ShloMosaic.Adequacy
import Idealize.ShloMosaic.Init

noncomputable section

namespace Cert.Proof

open Idealize.ShloMosaic Idealize.ShloMosaic.ValueIdx Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Stages.run (F := Ideal) m ρ)

/-- Both runs end at the specification's mean of the rows' losses, of arguments that agree. -/
theorem algebraic : @Cert.algebraic_KernelIdeal_ReferenceIdeal Cert.KernelIdeal.Gen.facts Cert.ReferenceIdeal.Gen.facts Cert.Pre_finite_inputs.Gen.facts := by
  intro m ρ m' ρ' hpre hagree
  have hT : ∀ (c : Dev Cert.KernelIdeal.nD) (r : Fin 2048),
      (m ((c.tc : Thread Cert.KernelIdeal.nD Cert.KernelIdeal.τ).loc Cert.KernelIdeal.main_arg1) (ix1 r)).toNat < 50257 :=
    fun c r => Cert.FocalPre.labels_lt _ _ (hpre c) r
  refine ⟨fun c => (fun _ => Cert.FocalSpec.total
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))),
    Cert.KernelIdeal.ArrayValue.run_value m ρ hT, ?_⟩
  refine (θ_run Cert.ReferenceIdeal.defs _ _).mono (fun _ h c => ⟨(h c).1.trans ?_, (h c).2⟩)
    (Cert.ReferenceIdeal.Stages.run (F := Ideal) m' ρ')
  rw [(hagree c).1, (hagree c).2]
  exact Cert.ReferenceIdeal.RefTail.total_eq _ _ (hT c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
